-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40_1)) (v1 : (c : Dev Cert.KernelIdeal.nD) → Buf (Elt Ideal) ((c.tc : Thread Cert.KernelIdeal.nD Cert.KernelIdeal.τ).loc Cert.KernelIdeal.main_v40_2)) (v2 : (c : Dev Cert.KernelIdeal.nD) → Buf (Elt Ideal) ((c.tc : Thread Cert.KernelIdeal.nD Cert.KernelIdeal.τ).loc Cert.KernelIdeal.main_v40_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_1) = v0 c
          ∧ r.2.mem ((c.tc : Thread Cert.KernelIdeal.nD Cert.KernelIdeal.τ).loc Cert.KernelIdeal.main_v40_2) = v1 c
          ∧ r.2.mem ((c.tc : Thread Cert.KernelIdeal.nD Cert.KernelIdeal.τ).loc Cert.KernelIdeal.main_v40_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x10 : Shape := ⟨2, ![128, 10]⟩
abbrev S128x20 : Shape := ⟨2, ![128, 20]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S128x20 : S_.BroadcastsInDim S128x20 (![] : Fin 0 → Fin S128x20.rank)
  reducesTo_S128x20_S_d0_1 : S128x20.ReducesTo [0, 1] S_

variable [Facts]

def fn_part1 {F : FTy → Type} [FloatOps F] (main_arg5 : FVec F S128x10 .f32) (main_arg6 : FVec F S128x20 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x10 .f32 := Host.absf main_arg5
  let main_cst_6 : FVec F S_ .f32 := constant S_ .f32 0x7F800000#32
  let main_v20 : FVec F S128x10 .f32 := broadcastInDim S128x10 ![] bcast_S_S128x10 main_cst_6
  let main_v21 : IVec S128x10 1 := cmpf .olt main_v19 main_v20
  let main_c_7 : IVec S_ 1 := constantI S_ 1 1#1
  let main_v22 : IVec S_ 1 := (fun x v => Host.reduce IntOp.andi x v reducesTo_S128x10_S_d0_1 h_S_) main_v21 main_c_7
  let main_v23 : IVec S_ 1 := andi main_v18 main_v22
  let main_v24 : FVec F S128x20 .f32 := Host.absf main_arg6
  let main_cst_8 : FVec F S_ .f32 := constant S_ .f32 0x7F800000#32
  let main_v25 : FVec F S128x20 .f32 := broadcastInDim S128x20 ![] bcast_S_S128x20 main_cst_8
  let main_v26 : IVec S128x20 1 := cmpf .olt main_v24 main_v25
  let main_c_9 : IVec S_ 1 := constantI S_ 1 1#1
  let main_v27 : IVec S_ 1 := (fun x v => Host.reduce IntOp.andi x v reducesTo_S128x20_S_d0_1 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x10 .f32) (main_arg6 : FVec F S128x20 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x10 : Shape := ⟨2, ![128, 10]⟩
abbrev S128x20 : Shape := ⟨2, ![128, 20]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S10 : Shape := ⟨1, ![10]⟩
abbrev S1x10 : Shape := ⟨2, ![1, 10]⟩
abbrev S20 : Shape := ⟨1, ![20]⟩
abbrev S1x20 : Shape := ⟨2, ![1, 20]⟩
abbrev S1x128 : Shape := ⟨2, ![1, 128]⟩
abbrev S100000x10 : Shape := ⟨2, ![100000, 10]⟩
abbrev S100000x20 : Shape := ⟨2, ![100000, 20]⟩
abbrev S4000x128 : Shape := ⟨2, ![4000, 128]⟩
abbrev S4000x10 : Shape := ⟨2, ![4000, 10]⟩
abbrev S4000x20 : Shape := ⟨2, ![4000, 20]⟩
abbrev S4000 : Shape := ⟨1, ![4000]⟩
abbrev S4000x1 : Shape := ⟨2, ![4000, 1]⟩

abbrev nBuf : Space → Nat
  | .hbm => 60
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x10, .f32⟩
  | .hbm, ⟨6, _⟩ => ⟨S128x20, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S128x10, .f32⟩
  | .hbm, ⟨37, _⟩ => ⟨S_, .f32⟩
  | .hbm, ⟨38, _⟩ => ⟨S10, .f32⟩
  | .hbm, ⟨39, _⟩ => ⟨S1x10, .f32⟩
  | .hbm, ⟨40, _⟩ => ⟨S1x10, .f32⟩
  | .hbm, ⟨41, _⟩ => ⟨S_, .f32⟩
  | .hbm, ⟨42, _⟩ => ⟨S1x10, .f32⟩
  | .hbm, ⟨43, _⟩ => ⟨S1x10, .f32⟩
  | .hbm, ⟨44, _⟩ => ⟨S128x10, .f32⟩
  | .hbm, ⟨45, _⟩ => ⟨S128x10, .f32⟩
  | .hbm, ⟨46, _⟩ => ⟨S128x20, .f32⟩
  | .hbm, ⟨47, _⟩ => ⟨S_, .f32⟩
  | .hbm, ⟨48, _⟩ => ⟨S20, .f32⟩
  | .hbm, ⟨49, _⟩ => ⟨S1x20, .f32⟩
  | .hbm, ⟨50, _⟩ => ⟨S1x20, .f32⟩
  | .hbm, ⟨51, _⟩ => ⟨S_, .f32⟩
  | .hbm, ⟨52, _⟩ => ⟨S1x20, .f32⟩
  | .hbm, ⟨53, _⟩ => ⟨S1x20, .f32⟩
  | .hbm, ⟨54, _⟩ => ⟨S128x20, .f32⟩
  | .hbm, ⟨55, _⟩ => ⟨S128x20, .f32⟩
  | .hbm, ⟨56, _⟩ => ⟨S1x128, .f32⟩
  | .hbm, ⟨57, _⟩ => ⟨S100000x128, .f32⟩
  | .hbm, ⟨58, _⟩ => ⟨S100000x10, .f32⟩
  | .hbm, ⟨59, _⟩ => ⟨S100000x20, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S128x10, .f32⟩
  | .local _ .vmem, ⟨8, _⟩ => ⟨S128x20, .f32⟩
  | .local _ .vmem, ⟨9, _⟩ => ⟨S4000x128, .f32⟩
  | .local _ .vmem, ⟨10, _⟩ => ⟨S4000x128, .f32⟩
  | .local _ .vmem, ⟨11, _⟩ => ⟨S4000x10, .f32⟩
  | .local _ .vmem, ⟨12, _⟩ => ⟨S4000x10, .f32⟩
  | .local _ .vmem, ⟨13, _⟩ => ⟨S4000x20, .f32⟩
  | .local _ .vmem, ⟨14, _⟩ => ⟨S4000x20, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40_0 : Ref sig .tc := ⟨.hbm, 57, rfl⟩
abbrev main_v40_1 : Ref sig .tc := ⟨.hbm, 58, rfl⟩
abbrev main_v40_2 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4000x10 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4000x20 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  reducesTo_S128x10_S10_d0 : S128x10.ReducesTo [0] S10
  h_S_ : 0 < S_.numel
  bcast_S10_S1x10_1 : S10.BroadcastsInDim S1x10 (![1] : Fin 1 → Fin S1x10.rank)
  bcast_S_S1x10 : S_.BroadcastsInDim S1x10 (![] : Fin 0 → Fin S1x10.rank)
  bcast_S1x10_S128x10_0_1 : S1x10.BroadcastsInDim S128x10 (![0, 1] : Fin 2 → Fin S128x10.rank)
  reducesTo_S128x20_S20_d0 : S128x20.ReducesTo [0] S20
  bcast_S20_S1x20_1 : S20.BroadcastsInDim S1x20 (![1] : Fin 1 → Fin S1x20.rank)
  bcast_S_S1x20 : S_.BroadcastsInDim S1x20 (![] : Fin 0 → Fin S1x20.rank)
  bcast_S1x20_S128x20_0_1 : S1x20.BroadcastsInDim S128x20 (![0, 1] : Fin 2 → Fin S128x20.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  broadcasts_S4000x1_S4000x128 : S4000x1.Broadcasts S4000x128
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S4000x10_S4000x10_0_0 : ∀ a, (![0, 0] : Fin 2 → Nat) a + S4000x10.size a ≤ S4000x10.size a
  h_S4000x10 : 0 < S4000x10.numel
  inb_S128x20_S128x20_0_0 : ∀ a, (![0, 0] : Fin 2 → Nat) a + S128x20.size a ≤ S128x20.size a
  h_S128x20 : 0 < S128x20.numel
  shapeCasts_S128x20_S128x20 : S128x20.ShapeCasts S128x20
  inb_S4000x20_S4000x20_0_0 : ∀ a, (![0, 0] : Fin 2 → Nat) a + S4000x20.size a ≤ S4000x20.size a
  h_S4000x20 : 0 < S4000x20.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  dot_S4000x128_S128x10_S4000x10_1_0_0_1_n_n_wf : DotDims.WF S4000x128 S128x10 S4000x10 [1] [0] [0] [1] [] []
  dot_S4000x128_S128x20_S4000x20_1_0_0_1_n_n_wf : DotDims.WF S4000x128 S128x20 S4000x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x10.size a ≤ S128x10.size a
  hwx0_5 : ∀ i : grid0.Coords, EltTy.bits .f32 = 32 ∨ (Rect.block (s := S128x10) S128x10.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x20.size a ≤ S128x20.size a
  hwx0_6 : ∀ i : grid0.Coords, EltTy.bits .f32 = 32 ∨ (Rect.block (s := S128x20) S128x20.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S100000x128.size a
  hwx0_7 : ∀ i : grid0.Coords, EltTy.bits .f32 = 32 ∨ (Rect.block (s := S100000x128) S4000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x10.size a ≤ S100000x10.size a
  hwx0_8 : ∀ i : grid0.Coords, EltTy.bits .f32 = 32 ∨ (Rect.block (s := S100000x10) S4000x10.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x20.size a ≤ S100000x20.size a
  hwx0_9 : ∀ i : grid0.Coords, EltTy.bits .f32 = 32 ∨ (Rect.block (s := S100000x20) S4000x20.size (cc0_transform_9 i) (hinb0_9 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x10_S4000x10_1_0_0_1_n_n : DotDims S4000x128 S128x10 S4000x10 where
  lhsContracting := [1]
  rhsContracting := [0]
  lhsNonContracting := [0]
  rhsNonContracting := [1]
  lhsBatch := []
  rhsBatch := []
  wf := dot_S4000x128_S128x10_S4000x10_1_0_0_1_n_n_wf
def dot_S4000x128_S128x20_S4000x20_1_0_0_1_n_n : DotDims S4000x128 S128x20 S4000x20 where
  lhsContracting := [1]
  rhsContracting := [0]
  lhsNonContracting := [0]
  rhsNonContracting := [1]
  lhsBatch := []
  rhsBatch := []
  wf := dot_S4000x128_S128x20_S4000x20_1_0_0_1_n_n_wf

abbrev win0_0 : Pipeline.Window sig grid0 :=
  Pipeline.Window.ofSpec (Memref.whole main_v22) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S128x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v38) S128x20.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v40_0) S4000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v40_1) S4000x10.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v40_2) S4000x20.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x10 : Shape := ⟨2, ![128, 10]⟩
abbrev S128x20 : Shape := ⟨2, ![128, 20]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S10 : Shape := ⟨1, ![10]⟩
abbrev S1x10 : Shape := ⟨2, ![1, 10]⟩
abbrev S100000x10 : Shape := ⟨2, ![100000, 10]⟩
abbrev S20 : Shape := ⟨1, ![20]⟩
abbrev S1x20 : Shape := ⟨2, ![1, 20]⟩
abbrev S100000x20 : Shape := ⟨2, ![100000, 20]⟩

abbrev nBuf : Space → Nat
  | .hbm => 80
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x10, .f32⟩
  | .hbm, ⟨6, _⟩ => ⟨S128x20, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000, .f32⟩
  | .hbm, ⟨45, _⟩ => ⟨S100000x1, .f32⟩
  | .hbm, ⟨46, _⟩ => ⟨S100000x1, .f32⟩
  | .hbm, ⟨47, _⟩ => ⟨S_, .f32⟩
  | .hbm, ⟨48, _⟩ => ⟨S100000x1, .f32⟩
  | .hbm, ⟨49, _⟩ => ⟨S100000x1, .f32⟩
  | .hbm, ⟨50, _⟩ => ⟨S100000x128, .f32⟩
  | .hbm, ⟨51, _⟩ => ⟨S100000x128, .f32⟩
  | .hbm, ⟨52, _⟩ => ⟨S128x10, .f32⟩
  | .hbm, ⟨53, _⟩ => ⟨S_, .f32⟩
  | .hbm, ⟨54, _⟩ => ⟨S10, .f32⟩
  | .hbm, ⟨55, _⟩ => ⟨S1x10, .f32⟩
  | .hbm, ⟨56, _⟩ => ⟨S1x10, .f32⟩
  | .hbm, ⟨57, _⟩ => ⟨S_, .f32⟩
  | .hbm, ⟨58, _⟩ => ⟨S1x10, .f32⟩
  | .hbm, ⟨59, _⟩ => ⟨S1x10, .f32⟩
  | .hbm, ⟨60, _⟩ => ⟨S128x10, .f32⟩
  | .hbm, ⟨61, _⟩ => ⟨S128x10, .f32⟩
  | .hbm, ⟨62, _⟩ => ⟨S100000x10, .f32⟩
  | .hbm, ⟨63, _⟩ => ⟨S_, .f32⟩
  | .hbm, ⟨64, _⟩ => ⟨S100000x10, .f32⟩
  | .hbm, ⟨65, _⟩ => ⟨S100000x10, .f32⟩
  | .hbm, ⟨66, _⟩ => ⟨S128x20, .f32⟩
  | .hbm, ⟨67, _⟩ => ⟨S_, .f32⟩
  | .hbm, ⟨68, _⟩ => ⟨S20, .f32⟩
  | .hbm, ⟨69, _⟩ => ⟨S1x20, .f32⟩
  | .hbm, ⟨70, _⟩ => ⟨S1x20, .f32⟩
  | .hbm, ⟨71, _⟩ => ⟨S_, .f32⟩
  | .hbm, ⟨72, _⟩ => ⟨S1x20, .f32⟩
  | .hbm, ⟨73, _⟩ => ⟨S1x20, .f32⟩
  | .hbm, ⟨74, _⟩ => ⟨S128x20, .f32⟩
  | .hbm, ⟨75, _⟩ => ⟨S128x20, .f32⟩
  | .hbm, ⟨76, _⟩ => ⟨S100000x20, .f32⟩
  | .hbm, ⟨77, _⟩ => ⟨S_, .f32⟩
  | .hbm, ⟨78, _⟩ => ⟨S100000x20, .f32⟩
  | .hbm, ⟨79, _⟩ => ⟨S100000x20, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  reducesTo_S128x10_S10_d0 : S128x10.ReducesTo [0] S10
  bcast_S10_S1x10_1 : S10.BroadcastsInDim S1x10 (![1] : Fin 1 → Fin S1x10.rank)
  bcast_S_S1x10 : S_.BroadcastsInDim S1x10 (![] : Fin 0 → Fin S1x10.rank)
  bcast_S1x10_S128x10_0_1 : S1x10.BroadcastsInDim S128x10 (![0, 1] : Fin 2 → Fin S128x10.rank)
  bcast_S_S100000x10 : S_.BroadcastsInDim S100000x10 (![] : Fin 0 → Fin S100000x10.rank)
  reducesTo_S128x20_S20_d0 : S128x20.ReducesTo [0] S20
  bcast_S20_S1x20_1 : S20.BroadcastsInDim S1x20 (![1] : Fin 1 → Fin S1x20.rank)
  bcast_S_S1x20 : S_.BroadcastsInDim S1x20 (![] : Fin 0 → Fin S1x20.rank)
  bcast_S1x20_S128x20_0_1 : S1x20.BroadcastsInDim S128x20 (![0, 1] : Fin 2 → Fin S128x20.rank)
  bcast_S_S100000x20 : S_.BroadcastsInDim S100000x20 (![] : Fin 0 → Fin S100000x20.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x10_S100000x10_1_0_0_1_n_n_wf : DotDims.WF S100000x128 S128x10 S100000x10 [1] [0] [0] [1] [] []
  dot_S100000x128_S128x20_S100000x20_1_0_0_1_n_n_wf : DotDims.WF S100000x128 S128x20 S100000x20 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x10_S100000x10_1_0_0_1_n_n : DotDims S100000x128 S128x10 S100000x10 where
  lhsContracting := [1]
  rhsContracting := [0]
  lhsNonContracting := [0]
  rhsNonContracting := [1]
  lhsBatch := []
  rhsBatch := []
  wf := dot_S100000x128_S128x10_S100000x10_1_0_0_1_n_n_wf
def dot_S100000x128_S128x20_S100000x20_1_0_0_1_n_n : DotDims S100000x128 S128x20 S100000x20 where
  lhsContracting := [1]
  rhsContracting := [0]
  lhsNonContracting := [0]
  rhsNonContracting := [1]
  lhsBatch := []
  rhsBatch := []
  wf := dot_S100000x128_S128x20_S100000x20_1_0_0_1_n_n_wf

class Facts : Prop extends Facts₀ where

variable [Facts]
-- ==== Proof.Rows.lean ====
/-
  SAGE mean-aggregation head, row by row, on the extended reals.

  For one node (one row of the 100000 x 128 feature arrays) write `a` for its aggregated-neighbour row and `x` for its
  own feature row.  The layer computes

      h_q   = (sum_k a_k * Wl[k, q] + b_q) + sum_k x_k * Wr[k, q]                      (`rowH`)
      hn_q  = h_q / max (sqrt (sum_k h_k * h_k), eps)                                   (`rowHN`, `rowNrm`)
      out_j = 10 * sum_k hn_k * nW[k, j]                                                (`rowOut`)

  with `eps` the f32 nearest 1e-12 and `nW` a column-normalised classifier matrix.  Every quantity of one row depends on
  that row of `a` and `x` only, which is why a tiling of the rows (the kernel works on 4000 rows at a time) and the
  whole-array computation (the reference) agree: both are these row functions applied to the same rows.  The additions
  and products are in the same order on both sides; no law beyond `0 + s = s` is needed, so nothing here asks the
  inputs to be finite.

  `hArr` and `outArr` are the whole result arrays: row `i 0` of the inputs pushed through the row functions.
-/
import Idealize.ShloMosaic.PureOps.Ideal
import Idealize.ShloMosaic.Lib.ValueIdx

noncomputable section

namespace Cert.Sage

open Idealize.ShloMosaic Idealize.ShloMosaic.ValueIdx
open scoped BigOperators

/-- The f32 nearest 1e-12: the floor under a norm before dividing by it. -/
abbrev eps : EReal := Ideal.ofBits .f32 0x2B8CBCCC#32

/-- The f32 ten: the scale of both classifier heads. -/
abbrev ten : EReal := Ideal.ofBits .f32 0x41200000#32

/-- One row of `h = agg @ Wl + b + x @ Wr`, at column `q`, from that row `a` of `agg` and `x` of the features. -/
def rowH (a x : Fin 128 → EReal) (Wl Wr : FVec Ideal ⟨2, ![128, 128]⟩ .f32) (b : Fin 128 → EReal) (q : Fin 128) : EReal :=
  ((∑ k : Fin 128, a k * Wl (ix2 k q)) + b q) + ∑ k : Fin 128, x k * Wr (ix2 k q)

/-- The floored Euclidean norm of a row. -/
def rowNrm (h : Fin 128 → EReal) : EReal :=
  max (Ideal.sqrt (∑ k : Fin 128, h k * h k)) eps

/-- A row divided by its floored norm. -/
def rowHN (h : Fin 128 → EReal) (q : Fin 128) : EReal :=
  Ideal.div (h q) (rowNrm h)

/-- One row of a classifier head: ten times the normalised row against column `j` of the matrix. -/
def rowOut {C : Nat} (hn : Fin 128 → EReal) (nW : FVec Ideal ⟨2, ![128, C]⟩ .f32) (j : Fin C) : EReal :=
  ten * ∑ k : Fin 128, hn k * nW (ix2 k j)

/-- The whole array `h`: each row of `agg` and `x` through `rowH`. -/
def hArr (agg x : FVec Ideal ⟨2, ![100000, 128]⟩ .f32) (Wl Wr : FVec Ideal ⟨2, ![128, 128]⟩ .f32) (b : Fin 128 → EReal) :
    FVec Ideal ⟨2, ![100000, 128]⟩ .f32 :=
  fun i => rowH (fun k => agg (ix2 (i 0) k)) (fun k => x (ix2 (i 0) k)) Wl Wr b (i 1)

/-- A whole head: each row of `h` normalised and multiplied into the classifier matrix. -/
def outArr {C : Nat} (h : FVec Ideal ⟨2, ![100000, 128]⟩ .f32) (nW : FVec Ideal ⟨2, ![128, C]⟩ .f32) :
    FVec Ideal ⟨2, ![100000, C]⟩ .f32 :=
  fun i => rowOut (rowHN (fun k => h (ix2 (i 0) k))) nW (i 1)

theorem hArr_apply (agg x : FVec Ideal ⟨2, ![100000, 128]⟩ .f32) (Wl Wr : FVec Ideal ⟨2, ![128, 128]⟩ .f32) (b : Fin 128 → EReal)
    (p : Fin 100000) (q : Fin 128) :
    hArr agg x Wl Wr b (ix2 p q) = rowH (fun k => agg (ix2 p k)) (fun k => x (ix2 p k)) Wl Wr b q := rfl

theorem outArr_apply {C : Nat} (h : FVec Ideal ⟨2, ![100000, 128]⟩ .f32) (nW : FVec Ideal ⟨2, ![128, C]⟩ .f32)
    (p : Fin 100000) (j : Fin C) :
    outArr h nW (ix2 p j) = rowOut (rowHN (fun k => h (ix2 p k))) nW j := rfl

end Cert.Sage

end
-- ==== Proof.KerPay.lean ====
/-
  The kernel's per-tile arithmetic, read one entry at a time.

  A tile is 4000 consecutive rows.  Inside a tile, entry (p, q) of each stored value depends on row p of the tile's two
  input blocks only:
    * a matrix product into a zero accumulator is the plain sum over the contracted axis (`0 + s = s`);
    * the lane reduction of the squared row is the sum of the squares of that row;
    * the bias, held as one row, is laid along every row of the tile;
    * the row's floored norm, held as one column, is laid along every column.
  So the three stored tiles are the row functions of `Rows.lean` at row p of the blocks.
-/
import proofs.«151472_j1176821039648_1_alg».proof.Proof.Gen.KernelIdeal.Skeleton
import proofs.«151472_j1176821039648_1_alg».proof.Proof.Rows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Cert.Sage
open Idealize.ShloMosaic Idealize.ShloMosaic.ValueIdx
open scoped BigOperators

/-! ## The three matrix products -/

abbrev DA := dot_S4000x128_S128x128_S4000x128_1_0_0_1_n_n
abbrev DB := dot_S4000x128_S128x10_S4000x10_1_0_0_1_n_n
abbrev DC := dot_S4000x128_S128x20_S4000x20_1_0_0_1_n_n

theorem lhsA_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhsA_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhsA_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhsA_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A 4000 x 128 block times a 128 x 128 matrix, into zeros: entry (p, q) is the sum over k of row p times column q. -/
theorem matA_apply (x : FVec Ideal S4000x128 .f32) (W : FVec Ideal S128x128 .f32) (p : Fin 4000) (q : Fin 128) :
    matmul dot_S4000x128_S128x128_S4000x128_1_0_0_1_n_n none x W (constant S4000x128 .f32 0x00000000#32) (ix2 p q)
      = ∑ k : Fin 128, x (ix2 p k) * W (ix2 k q) := by
  show FloatOps.matmul dot_S4000x128_S128x128_S4000x128_1_0_0_1_n_n none x W (constant S4000x128 .f32 0x00000000#32) (ix2 p q) = _
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhsA_0 _ _).trans hk
    | ⟨1, _⟩ => exact rhsA_1 _ _)
  rw [el, er]

theorem lhsB_0 (i : S4000x10.Idx) (q : dot_S4000x128_S128x10_S4000x10_1_0_0_1_n_n.contr.Idx) :
    (dot_S4000x128_S128x10_S4000x10_1_0_0_1_n_n.lhsIdx i q 0).val = (i 0).val := by
  unfold DotDims.lhsIdx
  rw [dif_neg (show ¬(0 : Fin S4000x128.rank) ∈ dot_S4000x128_S128x10_S4000x10_1_0_0_1_n_n.lhsBatch by decide), dif_pos (show (0 : Fin S4000x128.rank) ∈ dot_S4000x128_S128x10_S4000x10_1_0_0_1_n_n.lhsNonContracting by decide)]
  rfl
theorem lhsB_1 (i : S4000x10.Idx) (q : dot_S4000x128_S128x10_S4000x10_1_0_0_1_n_n.contr.Idx) :
    (dot_S4000x128_S128x10_S4000x10_1_0_0_1_n_n.lhsIdx i q 1).val = (q ⟨0, by decide⟩).val :=
  dot_S4000x128_S128x10_S4000x10_1_0_0_1_n_n.lhsIdx_val_of_single rfl i q
theorem rhsB_0 (i : S4000x10.Idx) (q : dot_S4000x128_S128x10_S4000x10_1_0_0_1_n_n.contr.Idx) :
    (dot_S4000x128_S128x10_S4000x10_1_0_0_1_n_n.rhsIdx i q 0).val = (q ⟨0, by decide⟩).val :=
  dot_S4000x128_S128x10_S4000x10_1_0_0_1_n_n.rhsIdx_val_of_single rfl i q
theorem rhsB_1 (i : S4000x10.Idx) (q : dot_S4000x128_S128x10_S4000x10_1_0_0_1_n_n.contr.Idx) :
    (dot_S4000x128_S128x10_S4000x10_1_0_0_1_n_n.rhsIdx i q 1).val = (i 1).val := by
  unfold DotDims.rhsIdx
  rw [dif_neg (show ¬(1 : Fin S128x10.rank) ∈ dot_S4000x128_S128x10_S4000x10_1_0_0_1_n_n.rhsBatch by decide), dif_pos (show (1 : Fin S128x10.rank) ∈ dot_S4000x128_S128x10_S4000x10_1_0_0_1_n_n.rhsNonContracting by decide)]
  rfl

/-- A 4000 x 128 block times a 128 x 10 matrix, into zeros: entry (p, q) is the sum over k of row p times column q. -/
theorem matB_apply (x : FVec Ideal S4000x128 .f32) (W : FVec Ideal S128x10 .f32) (p : Fin 4000) (q : Fin 10) :
    matmul dot_S4000x128_S128x10_S4000x10_1_0_0_1_n_n none x W (constant S4000x10 .f32 0x00000000#32) (ix2 p q)
      = ∑ k : Fin 128, x (ix2 p k) * W (ix2 k q) := by
  show FloatOps.matmul dot_S4000x128_S128x10_S4000x10_1_0_0_1_n_n none x W (constant S4000x10 .f32 0x00000000#32) (ix2 p q) = _
  rw [Ideal.matmul_constant_zero_apply, ← Equiv.sum_comp (contrEquiv1 dot_S4000x128_S128x10_S4000x10_1_0_0_1_n_n 128 rfl rfl).symm]
  refine Finset.sum_congr rfl fun k _ => ?_
  have hk := contrEquiv1_symm_val dot_S4000x128_S128x10_S4000x10_1_0_0_1_n_n 128 rfl rfl k
  have el : dot_S4000x128_S128x10_S4000x10_1_0_0_1_n_n.lhsIdx (ix2 p q) ((contrEquiv1 dot_S4000x128_S128x10_S4000x10_1_0_0_1_n_n 128 rfl rfl).symm k) = ix2 p k := funext fun a => Fin.ext (by
    match a with
    | ⟨0, _⟩ => exact lhsB_0 _ _
    | ⟨1, _⟩ => exact (lhsB_1 _ _).trans hk)
  have er : dot_S4000x128_S128x10_S4000x10_1_0_0_1_n_n.rhsIdx (ix2 p q) ((contrEquiv1 dot_S4000x128_S128x10_S4000x10_1_0_0_1_n_n 128 rfl rfl).symm k) = ix2 k q := funext fun a => Fin.ext (by
    match a with
    | ⟨0, _⟩ => exact (rhsB_0 _ _).trans hk
    | ⟨1, _⟩ => exact rhsB_1 _ _)
  rw [el, er]

theorem lhsC_0 (i : S4000x20.Idx) (q : dot_S4000x128_S128x20_S4000x20_1_0_0_1_n_n.contr.Idx) :
    (dot_S4000x128_S128x20_S4000x20_1_0_0_1_n_n.lhsIdx i q 0).val = (i 0).val := by
  unfold DotDims.lhsIdx
  rw [dif_neg (show ¬(0 : Fin S4000x128.rank) ∈ dot_S4000x128_S128x20_S4000x20_1_0_0_1_n_n.lhsBatch by decide), dif_pos (show (0 : Fin S4000x128.rank) ∈ dot_S4000x128_S128x20_S4000x20_1_0_0_1_n_n.lhsNonContracting by decide)]
  rfl
theorem lhsC_1 (i : S4000x20.Idx) (q : dot_S4000x128_S128x20_S4000x20_1_0_0_1_n_n.contr.Idx) :
    (dot_S4000x128_S128x20_S4000x20_1_0_0_1_n_n.lhsIdx i q 1).val = (q ⟨0, by decide⟩).val :=
  dot_S4000x128_S128x20_S4000x20_1_0_0_1_n_n.lhsIdx_val_of_single rfl i q
theorem rhsC_0 (i : S4000x20.Idx) (q : dot_S4000x128_S128x20_S4000x20_1_0_0_1_n_n.contr.Idx) :
    (dot_S4000x128_S128x20_S4000x20_1_0_0_1_n_n.rhsIdx i q 0).val = (q ⟨0, by decide⟩).val :=
  dot_S4000x128_S128x20_S4000x20_1_0_0_1_n_n.rhsIdx_val_of_single rfl i q
theorem rhsC_1 (i : S4000x20.Idx) (q : dot_S4000x128_S128x20_S4000x20_1_0_0_1_n_n.contr.Idx) :
    (dot_S4000x128_S128x20_S4000x20_1_0_0_1_n_n.rhsIdx i q 1).val = (i 1).val := by
  unfold DotDims.rhsIdx
  rw [dif_neg (show ¬(1 : Fin S128x20.rank) ∈ dot_S4000x128_S128x20_S4000x20_1_0_0_1_n_n.rhsBatch by decide), dif_pos (show (1 : Fin S128x20.rank) ∈ dot_S4000x128_S128x20_S4000x20_1_0_0_1_n_n.rhsNonContracting by decide)]
  rfl

/-- A 4000 x 128 block times a 128 x 20 matrix, into zeros: entry (p, q) is the sum over k of row p times column q. -/
theorem matC_apply (x : FVec Ideal S4000x128 .f32) (W : FVec Ideal S128x20 .f32) (p : Fin 4000) (q : Fin 20) :
    matmul dot_S4000x128_S128x20_S4000x20_1_0_0_1_n_n none x W (constant S4000x20 .f32 0x00000000#32) (ix2 p q)
      = ∑ k : Fin 128, x (ix2 p k) * W (ix2 k q) := by
  show FloatOps.matmul dot_S4000x128_S128x20_S4000x20_1_0_0_1_n_n none x W (constant S4000x20 .f32 0x00000000#32) (ix2 p q) = _
  rw [Ideal.matmul_constant_zero_apply, ← Equiv.sum_comp (contrEquiv1 dot_S4000x128_S128x20_S4000x20_1_0_0_1_n_n 128 rfl rfl).symm]
  refine Finset.sum_congr rfl fun k _ => ?_
  have hk := contrEquiv1_symm_val dot_S4000x128_S128x20_S4000x20_1_0_0_1_n_n 128 rfl rfl k
  have el : dot_S4000x128_S128x20_S4000x20_1_0_0_1_n_n.lhsIdx (ix2 p q) ((contrEquiv1 dot_S4000x128_S128x20_S4000x20_1_0_0_1_n_n 128 rfl rfl).symm k) = ix2 p k := funext fun a => Fin.ext (by
    match a with
    | ⟨0, _⟩ => exact lhsC_0 _ _
    | ⟨1, _⟩ => exact (lhsC_1 _ _).trans hk)
  have er : dot_S4000x128_S128x20_S4000x20_1_0_0_1_n_n.rhsIdx (ix2 p q) ((contrEquiv1 dot_S4000x128_S128x20_S4000x20_1_0_0_1_n_n 128 rfl rfl).symm k) = ix2 k q := funext fun a => Fin.ext (by
    match a with
    | ⟨0, _⟩ => exact (rhsC_0 _ _).trans hk
    | ⟨1, _⟩ => exact rhsC_1 _ _)
  rw [el, er]

/-! ## The row's floored norm -/

/-- The lane reduction of a block's squares at row `p`: the sum of the squares of that row. -/
theorem rowSumSq (h : FVec Ideal S4000x128 .f32) (p : Fin 4000) :
    multiReduction .add [1] S4000 (mulf h h) 0x00000000#32 reduces_S4000x128_S4000 (.inl rfl) rfl (ix1 p)
      = ∑ k : Fin 128, h (ix2 p k) * h (ix2 p k) :=
  (Ideal.multiReduction_add_single (mulf h h) 0x00000000#32 reduces_S4000x128_S4000 (.inl rfl) rfl (ix1 p)).trans
    (Finset.sum_congr rfl fun k _ => by
      have e : reduces_S4000x128_S4000.lift (ix1 p) k = ix2 p k :=
        funext fun a => Fin.ext (by match a with | ⟨0, _⟩ => rfl | ⟨1, _⟩ => rfl)
      show h (reduces_S4000x128_S4000.lift (ix1 p) k) * h (reduces_S4000x128_S4000.lift (ix1 p) k) = _
      rw [e]; rfl)

/-- The column of floored norms laid along the columns, at (p, q): the floored norm of row `p`. -/
theorem nrm_apply (h : FVec Ideal S4000x128 .f32) (p : Fin 4000) (q : Fin 128) :
    broadcastTo S4000x128
      (maximumf (sqrt (shapeCast S4000x1 (multiReduction .add [1] S4000 (mulf h h) 0x00000000#32 reduces_S4000x128_S4000 (.inl rfl) rfl) shapeCasts_S4000_S4000x1))
        (broadcast S4000x1 (Scalar.ofBits (F := Ideal) .f32 0x2B8CBCCC#32)))
      broadcasts_S4000x1_S4000x128 (ix2 p q)
      = rowNrm (fun k => h (ix2 p k)) := by
  refine (broadcastTo_apply _ broadcasts_S4000x1_S4000x128 (ix2 p q) (ix2 p (0 : Fin 1)) (fun a => ?_)).trans ?_
  · match a with
    | ⟨0, _⟩ => rfl
    | ⟨1, _⟩ => rfl
  · show max (Ideal.sqrt (shapeCast S4000x1 (multiReduction .add [1] S4000 (mulf h h) 0x00000000#32 reduces_S4000x128_S4000 (.inl rfl) rfl) shapeCasts_S4000_S4000x1 (ix2 p (0 : Fin 1)))) eps = _
    rw [shapeCast_apply _ shapeCasts_S4000_S4000x1 (ix2 p (0 : Fin 1)) (ix1 p)
      (by rewrite [Shape.rowMajor_val_two, Shape.rowMajor_val_one]; show p.val = p.val * 1 + 0; omega), rowSumSq]
    rfl

/-! ## The stored tiles, entry by entry -/

/-- The tile of `h`: row `p` of the two input blocks through `rowH`; the bias is the one row `x3`. -/
theorem pay2_apply (x0 x1 : Vec Ideal S4000x128 .f32) (x2 : Vec Ideal S128x128 .f32) (x3 : Vec Ideal S1x128 .f32)
    (x4 : Vec Ideal S128x128 .f32) (p : Fin 4000) (q : Fin 128) :
    k0_pay2 x0 x1 x2 x3 x4 (ix2 p q)
      = rowH (fun k => x0 (ix2 p k)) (fun k => x1 (ix2 p k)) x2 x4 (fun j => x3 (ix2 (0 : Fin 1) j)) q := by
  unfold k0_pay2
  show (matmul (F := Ideal) dot_S4000x128_S128x128_S4000x128_1_0_0_1_n_n none (shapeCast S4000x128 x0 shapeCasts_S4000x128_S4000x128) x2 (constant (F := Ideal) S4000x128 .f32 0x00000000#32) (ix2 p q)
      + broadcastTo S4000x128 (shapeCast S1x128 x3 shapeCasts_S1x128_S1x128) broadcasts_S1x128_S4000x128 (ix2 p q))
      + matmul (F := Ideal) dot_S4000x128_S128x128_S4000x128_1_0_0_1_n_n none x1 x4 (constant (F := Ideal) S4000x128 .f32 0x00000000#32) (ix2 p q) = _
  rw [shapeCast_self, shapeCast_self, matA_apply, matA_apply,
    broadcastTo_apply x3 broadcasts_S1x128_S4000x128 (ix2 p q) (ix2 (0 : Fin 1) q)
      (fun a => by match a with | ⟨0, _⟩ => rfl | ⟨1, _⟩ => rfl)]
  rfl

/-- The normalised tile: each entry of `h` over the floored norm of its row. -/
theorem pay3_apply (x0 x1 : Vec Ideal S4000x128 .f32) (x2 : Vec Ideal S128x128 .f32) (x3 : Vec Ideal S1x128 .f32)
    (x4 : Vec Ideal S128x128 .f32) (p : Fin 4000) (q : Fin 128) :
    k0_pay3 x0 x1 x2 x3 x4 (ix2 p q) = rowHN (fun k => k0_pay2 x0 x1 x2 x3 x4 (ix2 p k)) q := by
  unfold k0_pay3
  show Ideal.div (k0_pay2 x0 x1 x2 x3 x4 (ix2 p q))
      (broadcastTo S4000x128
        (maximumf (sqrt (shapeCast S4000x1 (multiReduction .add [1] S4000 (mulf (k0_pay2 x0 x1 x2 x3 x4) (k0_pay2 x0 x1 x2 x3 x4)) 0x00000000#32 reduces_S4000x128_S4000 (.inl rfl) rfl) shapeCasts_S4000_S4000x1))
          (broadcast S4000x1 (Scalar.ofBits (F := Ideal) .f32 0x2B8CBCCC#32)))
        broadcasts_S4000x1_S4000x128 (ix2 p q)) = _
  rw [nrm_apply]
  rfl

/-- The first head's tile: ten times the normalised row against column `j` of the 128 x 10 matrix. -/
theorem pay4_apply (x0 x1 : Vec Ideal S4000x128 .f32) (x2 : Vec Ideal S128x128 .f32) (x3 : Vec Ideal S1x128 .f32)
    (x4 : Vec Ideal S128x128 .f32) (x5 : Vec Ideal S128x10 .f32) (p : Fin 4000) (j : Fin 10) :
    k0_pay4 x0 x1 x2 x3 x4 x5 (ix2 p j) = rowOut (fun k => k0_pay3 x0 x1 x2 x3 x4 (ix2 p k)) x5 j := by
  unfold k0_pay4
  show ten * matmul (F := Ideal) dot_S4000x128_S128x10_S4000x10_1_0_0_1_n_n none (k0_pay3 x0 x1 x2 x3 x4) (shapeCast S128x10 x5 shapeCasts_S128x10_S128x10) (constant (F := Ideal) S4000x10 .f32 0x00000000#32) (ix2 p j) = _
  rw [shapeCast_self, matB_apply]
  rfl

/-- The second head's tile, likewise, against the 128 x 20 matrix. -/
theorem pay15_apply (x0 x1 : Vec Ideal S4000x128 .f32) (x2 : Vec Ideal S128x128 .f32) (x3 : Vec Ideal S1x128 .f32)
    (x4 : Vec Ideal S128x128 .f32) (x6 : Vec Ideal S128x20 .f32) (p : Fin 4000) (j : Fin 20) :
    k0_pay1 (k0_pay5 x0 x1 x2 x3 x4 x6) (k0_pay6 (F := Ideal)) (ix2 p j) = rowOut (fun k => k0_pay3 x0 x1 x2 x3 x4 (ix2 p k)) x6 j := by
  unfold k0_pay1 k0_pay5 k0_pay6
  show ten * matmul (F := Ideal) dot_S4000x128_S128x20_S4000x20_1_0_0_1_n_n none (k0_pay3 x0 x1 x2 x3 x4) (shapeCast S128x20 x6 shapeCasts_S128x20_S128x20) (constant (F := Ideal) S4000x20 .f32 0x00000000#32) (ix2 p j) = _
  rw [shapeCast_self, matC_apply]
  rfl

end Cert.KernelIdeal.Tile

end
-- ==== Proof.KerRead.lean ====
/-
  Which rows each tile touches.

  The region walks 25 tiles.  At tile `t` the two streamed input blocks and the three result blocks are rows
  4000 t … 4000 t + 3999 of their arrays; the four matrices and the bias row are fetched whole.  The 25 result blocks
  cover their arrays: row r lies in tile r / 4000.  Nothing here depends on what the arrays hold.
-/
import proofs.«151472_j1176821039648_1_alg».proof.Proof.Gen.KernelIdeal.Value
import Idealize.ShloMosaic.Lib.Pipeline.Value

set_option maxRecDepth 16384

noncomputable section

namespace Cert.KernelIdeal.Rows

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The index maps over the 25 tiles: the two streamed inputs and the three results move one block of rows per tile;
    the matrices and the bias stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

theorem hz : (![0, 0] : Fin 2 → Nat) = fun _ => 0 := funext fun a => by fin_cases a <;> rfl

/-! ## The input blocks -/

/-- Tile `t`'s block of the aggregated array is its rows 4000 t …; -/
theorem blk0_read (c : Dev nD) (t : Fin cfg0.N) (y : S4000x128.Idx) (i : S100000x128.Idx)
    (h0 : (i 0).val = 4000 * t.val + (y 0).val) (h1 : (i 1).val = (y 1).val) : iblk m c 0 t y = V m c main_v22 i := by
  obtain ⟨e0, e1, -⟩ := idx_facts t
  have he : ((cfg0.win 0).blk t).view.emb y = i := by
    funext a; apply Fin.ext
    match a with
    | ⟨0, _⟩ => show win0_0.index t (0 : Fin 2) * 4000 + 1 * (y 0).val = (i 0).val; rw [h0, e0]; omega
    | ⟨1, _⟩ => show win0_0.index t (1 : Fin 2) * 128 + 1 * (y 1).val = (i 1).val; rw [h1, e1]; omega
  show V m c main_v22 (((cfg0.win 0).blk t).view.emb y) = V m c main_v22 i
  rw [he]

/-- its block of the features likewise. -/
theorem blk1_read (c : Dev nD) (t : Fin cfg0.N) (y : S4000x128.Idx) (i : S100000x128.Idx)
    (h0 : (i 0).val = 4000 * t.val + (y 0).val) (h1 : (i 1).val = (y 1).val) : iblk m c 1 t y = V m c main_arg0 i := by
  obtain ⟨-, -, e0, e1, -⟩ := idx_facts t
  have he : ((cfg0.win 1).blk t).view.emb y = i := by
    funext a; apply Fin.ext
    match a with
    | ⟨0, _⟩ => show win0_1.index t (0 : Fin 2) * 4000 + 1 * (y 0).val = (i 0).val; rw [h0, e0]; omega
    | ⟨1, _⟩ => show win0_1.index t (1 : Fin 2) * 128 + 1 * (y 1).val = (i 1).val; rw [h1, e1]; omega
  show V m c main_arg0 (((cfg0.win 1).blk t).view.emb y) = V m c main_arg0 i
  rw [he]

/-! The resident operands are whole at every tile. -/

theorem blk2_whole (c : Dev nD) (t : Fin cfg0.N) : iblk m c 2 t = V m c main_arg2 := by
  obtain ⟨-, -, -, -, e0, e1, -⟩ := idx_facts t
  funext y
  have he : ((cfg0.win 2).blk t).view.emb y = y := by
    funext a; apply Fin.ext
    match a with
    | ⟨0, _⟩ => show win0_2.index t (0 : Fin 2) * 128 + 1 * (y 0).val = (y 0).val; rw [e0]; omega
    | ⟨1, _⟩ => show win0_2.index t (1 : Fin 2) * 128 + 1 * (y 1).val = (y 1).val; rw [e1]; omega
  show V m c main_arg2 (((cfg0.win 2).blk t).view.emb y) = V m c main_arg2 y
  rw [he]

theorem blk3_whole (c : Dev nD) (t : Fin cfg0.N) : iblk m c 3 t = V m c main_v39 := by
  obtain ⟨-, -, -, -, -, -, e0, e1, -⟩ := idx_facts t
  funext y
  have he : ((cfg0.win 3).blk t).view.emb y = y := by
    funext a; apply Fin.ext
    match a with
    | ⟨0, _⟩ => show win0_3.index t (0 : Fin 2) * 1 + 1 * (y 0).val = (y 0).val; rw [e0]; omega
    | ⟨1, _⟩ => show win0_3.index t (1 : Fin 2) * 128 + 1 * (y 1).val = (y 1).val; rw [e1]; omega
  show V m c main_v39 (((cfg0.win 3).blk t).view.emb y) = V m c main_v39 y
  rw [he]

theorem blk4_whole (c : Dev nD) (t : Fin cfg0.N) : iblk m c 4 t = V m c main_arg4 := by
  obtain ⟨-, -, -, -, -, -, -, -, e0, e1, -⟩ := idx_facts t
  funext y
  have he : ((cfg0.win 4).blk t).view.emb y = y := by
    funext a; apply Fin.ext
    match a with
    | ⟨0, _⟩ => show win0_4.index t (0 : Fin 2) * 128 + 1 * (y 0).val = (y 0).val; rw [e0]; omega
    | ⟨1, _⟩ => show win0_4.index t (1 : Fin 2) * 128 + 1 * (y 1).val = (y 1).val; rw [e1]; omega
  show V m c main_arg4 (((cfg0.win 4).blk t).view.emb y) = V m c main_arg4 y
  rw [he]

theorem blk5_whole (c : Dev nD) (t : Fin cfg0.N) : iblk m c 5 t = V m c main_v30 := by
  obtain ⟨-, -, -, -, -, -, -, -, -, -, e0, e1, -⟩ := idx_facts t
  funext y
  have he : ((cfg0.win 5).blk t).view.emb y = y := by
    funext a; apply Fin.ext
    match a with
    | ⟨0, _⟩ => show win0_5.index t (0 : Fin 2) * 128 + 1 * (y 0).val = (y 0).val; rw [e0]; omega
    | ⟨1, _⟩ => show win0_5.index t (1 : Fin 2) * 10 + 1 * (y 1).val = (y 1).val; rw [e1]; omega
  show V m c main_v30 (((cfg0.win 5).blk t).view.emb y) = V m c main_v30 y
  rw [he]

theorem blk6_whole (c : Dev nD) (t : Fin cfg0.N) : iblk m c 6 t = V m c main_v38 := by
  obtain ⟨-, -, -, -, -, -, -, -, -, -, -, -, e0, e1, -⟩ := idx_facts t
  funext y
  have he : ((cfg0.win 6).blk t).view.emb y = y := by
    funext a; apply Fin.ext
    match a with
    | ⟨0, _⟩ => show win0_6.index t (0 : Fin 2) * 128 + 1 * (y 0).val = (y 0).val; rw [e0]; omega
    | ⟨1, _⟩ => show win0_6.index t (1 : Fin 2) * 20 + 1 * (y 1).val = (y 1).val; rw [e1]; omega
  show V m c main_v38 (((cfg0.win 6).blk t).view.emb y) = V m c main_v38 y
  rw [he]

/-! ## What a tile writes back -/

/-- Tile `t` writes back the tile of `h`: if that is rows 4000 t … of `G`, it writes back block `t` of `G`. -/
theorem flushed7_read (c : Dev nD) (t : Fin cfg0.N) (G : S100000x128.Idx → Elt F .f32)
    (hG : ∀ (y : S4000x128.Idx) (i : S100000x128.Idx), (i 0).val = 4000 * t.val + (y 0).val → (i 1).val = (y 1).val →
      k0_pay2 (iblk m c 0 t) (iblk m c 1 t) (iblk m c 2 t) (iblk m c 3 t) (iblk m c 4 t) y = G i) :
    (dats m 0 c).flushed 7 t = ((cfg0.win 7).blk t).view.read (Elt F) G := by
  obtain ⟨-, -, -, -, -, -, -, -, -, -, -, -, -, -, e0, e1, -⟩ := idx_facts t
  rw [Value.flushed7]
  unfold out0_7
  rw [View.canon_unit_zero hz]
  simp only [View.ld_unit_zero (S := S4000x128) hz, View.ld_unit_zero (S := S128x128) hz, View.ld_unit_zero (S := S1x128) hz]
  funext j
  show k0_pay2 (iblk m c 0 t) (iblk m c 1 t) (iblk m c 2 t) (iblk m c 3 t) (iblk m c 4 t) j = G (((cfg0.win 7).blk t).view.emb j)
  exact hG j _ (by show win0_7.index t (0 : Fin 2) * 4000 + 1 * (j 0).val = 4000 * t.val + (j 0).val; rw [e0]; omega)
    (by show win0_7.index t (1 : Fin 2) * 128 + 1 * (j 1).val = (j 1).val; rw [e1]; omega)

/-- The first head's tile, likewise. -/
theorem flushed8_read (c : Dev nD) (t : Fin cfg0.N) (G : S100000x10.Idx → Elt F .f32)
    (hG : ∀ (y : S4000x10.Idx) (i : S100000x10.Idx), (i 0).val = 4000 * t.val + (y 0).val → (i 1).val = (y 1).val →
      k0_pay4 (iblk m c 0 t) (iblk m c 1 t) (iblk m c 2 t) (iblk m c 3 t) (iblk m c 4 t) (iblk m c 5 t) y = G i) :
    (dats m 0 c).flushed 8 t = ((cfg0.win 8).blk t).view.read (Elt F) G := by
  obtain ⟨-, -, -, -, -, -, -, -, -, -, -, -, -, -, -, -, e0, e1, -⟩ := idx_facts t
  rw [Value.flushed8]
  unfold out0_8
  rw [View.canon_unit_zero hz]
  simp only [View.ld_unit_zero (S := S4000x128) hz, View.ld_unit_zero (S := S128x128) hz, View.ld_unit_zero (S := S1x128) hz, View.ld_unit_zero (S := S128x10) hz]
  funext j
  show k0_pay4 (iblk m c 0 t) (iblk m c 1 t) (iblk m c 2 t) (iblk m c 3 t) (iblk m c 4 t) (iblk m c 5 t) j = G (((cfg0.win 8).blk t).view.emb j)
  exact hG j _ (by show win0_8.index t (0 : Fin 2) * 4000 + 1 * (j 0).val = 4000 * t.val + (j 0).val; rw [e0]; omega)
    (by show win0_8.index t (1 : Fin 2) * 10 + 1 * (j 1).val = (j 1).val; rw [e1]; omega)

/-- The second head's tile, likewise. -/
theorem flushed9_read (c : Dev nD) (t : Fin cfg0.N) (G : S100000x20.Idx → Elt F .f32)
    (hG : ∀ (y : S4000x20.Idx) (i : S100000x20.Idx), (i 0).val = 4000 * t.val + (y 0).val → (i 1).val = (y 1).val →
      k0_pay1 (k0_pay5 (iblk m c 0 t) (iblk m c 1 t) (iblk m c 2 t) (iblk m c 3 t) (iblk m c 4 t) (iblk m c 6 t)) (k0_pay6 (F := F)) y = G i) :
    (dats m 0 c).flushed 9 t = ((cfg0.win 9).blk t).view.read (Elt F) G := by
  obtain ⟨-, -, -, -, -, -, -, -, -, -, -, -, -, -, -, -, -, -, e0, e1⟩ := idx_facts t
  rw [Value.flushed9]
  unfold out0_9
  rw [View.canon_unit_zero hz]
  simp only [View.ld_unit_zero (S := S4000x128) hz, View.ld_unit_zero (S := S128x128) hz, View.ld_unit_zero (S := S1x128) hz, View.ld_unit_zero (S := S128x20) hz]
  funext j
  show k0_pay1 (k0_pay5 (iblk m c 0 t) (iblk m c 1 t) (iblk m c 2 t) (iblk m c 3 t) (iblk m c 4 t) (iblk m c 6 t)) (k0_pay6 (F := F)) j = G (((cfg0.win 9).blk t).view.emb j)
  exact hG j _ (by show win0_9.index t (0 : Fin 2) * 4000 + 1 * (j 0).val = 4000 * t.val + (j 0).val; rw [e0]; omega)
    (by show win0_9.index t (1 : Fin 2) * 20 + 1 * (j 1).val = (j 1).val; rw [e1]; omega)

/-! ## The blocks cover the results -/

/-- An index of result 0 is in tile `t`'s block iff each coordinate is in the block's range. -/
theorem mem_blk7 (t : Fin cfg0.N) (i : S100000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v40_0).slice (win0_7.rect t)).set ↔ _
  rw [View.set_slice_whole, Rect.mem_set_unit]
  exact Iff.rfl

/-- Every row of result 0 lies in some tile's block: row r in tile r / 4000. -/
theorem cover7 (i : S100000x128.Idx) : ∃ t : Fin cfg0.N, (cfg0.win 7).flush t = true ∧ i ∈ ((cfg0.win 7).blk t).view.set := by
  have hi0 : (i 0).val < 100000 := (i 0).isLt
  have hi1 : (i 1).val < 128 := (i 1).isLt
  have hN : cfg0.N = 25 := N_0
  have ht : (i 0).val / 4000 < cfg0.N := by rw [hN]; omega
  obtain ⟨-, -, -, -, -, -, -, -, -, -, -, -, -, -, e0, e1, -⟩ := idx_facts ⟨(i 0).val / 4000, ht⟩
  refine ⟨⟨(i 0).val / 4000, ht⟩, flush0_7 _, ?_⟩
  rw [mem_blk7]
  intro a
  match a with
  | ⟨0, _⟩ =>
    show win0_7.index ⟨(i 0).val / 4000, ht⟩ (0 : Fin 2) * 4000 ≤ (i 0).val ∧ (i 0).val < win0_7.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_7.index ⟨(i 0).val / 4000, ht⟩ (1 : Fin 2) * 128 ≤ (i 1).val ∧ (i 1).val < win0_7.index ⟨(i 0).val / 4000, ht⟩ (1 : Fin 2) * 128 + 128
    rw [e1]; omega

/-- So if every tile writes back its block of `G`, the result ends holding `G`. -/
theorem final7_of (c : Dev nD) (G : S100000x128.Idx → Elt F .f32)
    (hG : ∀ t, (dats m 0 c).flushed 7 t = ((cfg0.win 7).blk t).view.read (Elt F) G) :
    (dats m 0 c).arrAt 7 cfg0.N = G :=
  (dats m 0 c).arrAt_eq_of_cover 7 G (fun t _ => hG t) cover7

/-- An index of result 1 is in tile `t`'s block iff each coordinate is in the block's range. -/
theorem mem_blk8 (t : Fin cfg0.N) (i : S100000x10.Idx) :
    i ∈ ((cfg0.win 8).blk t).view.set ↔ ∀ a : Fin 2, win0_8.index t a * S4000x10.size a ≤ (i a).val ∧ (i a).val < win0_8.index t a * S4000x10.size a + S4000x10.size a := by
  show i ∈ ((View.whole main_v40_1).slice (win0_8.rect t)).set ↔ _
  rw [View.set_slice_whole, Rect.mem_set_unit]
  exact Iff.rfl

/-- Every row of result 1 lies in some tile's block: row r in tile r / 4000. -/
theorem cover8 (i : S100000x10.Idx) : ∃ t : Fin cfg0.N, (cfg0.win 8).flush t = true ∧ i ∈ ((cfg0.win 8).blk t).view.set := by
  have hi0 : (i 0).val < 100000 := (i 0).isLt
  have hi1 : (i 1).val < 10 := (i 1).isLt
  have hN : cfg0.N = 25 := N_0
  have ht : (i 0).val / 4000 < cfg0.N := by rw [hN]; omega
  obtain ⟨-, -, -, -, -, -, -, -, -, -, -, -, -, -, -, -, e0, e1, -⟩ := idx_facts ⟨(i 0).val / 4000, ht⟩
  refine ⟨⟨(i 0).val / 4000, ht⟩, flush0_8 _, ?_⟩
  rw [mem_blk8]
  intro a
  match a with
  | ⟨0, _⟩ =>
    show win0_8.index ⟨(i 0).val / 4000, ht⟩ (0 : Fin 2) * 4000 ≤ (i 0).val ∧ (i 0).val < win0_8.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_8.index ⟨(i 0).val / 4000, ht⟩ (1 : Fin 2) * 10 ≤ (i 1).val ∧ (i 1).val < win0_8.index ⟨(i 0).val / 4000, ht⟩ (1 : Fin 2) * 10 + 10
    rw [e1]; omega

/-- So if every tile writes back its block of `G`, the result ends holding `G`. -/
theorem final8_of (c : Dev nD) (G : S100000x10.Idx → Elt F .f32)
    (hG : ∀ t, (dats m 0 c).flushed 8 t = ((cfg0.win 8).blk t).view.read (Elt F) G) :
    (dats m 0 c).arrAt 8 cfg0.N = G :=
  (dats m 0 c).arrAt_eq_of_cover 8 G (fun t _ => hG t) cover8

/-- An index of result 2 is in tile `t`'s block iff each coordinate is in the block's range. -/
theorem mem_blk9 (t : Fin cfg0.N) (i : S100000x20.Idx) :
    i ∈ ((cfg0.win 9).blk t).view.set ↔ ∀ a : Fin 2, win0_9.index t a * S4000x20.size a ≤ (i a).val ∧ (i a).val < win0_9.index t a * S4000x20.size a + S4000x20.size a := by
  show i ∈ ((View.whole main_v40_2).slice (win0_9.rect t)).set ↔ _
  rw [View.set_slice_whole, Rect.mem_set_unit]
  exact Iff.rfl

/-- Every row of result 2 lies in some tile's block: row r in tile r / 4000. -/
theorem cover9 (i : S100000x20.Idx) : ∃ t : Fin cfg0.N, (cfg0.win 9).flush t = true ∧ i ∈ ((cfg0.win 9).blk t).view.set := by
  have hi0 : (i 0).val < 100000 := (i 0).isLt
  have hi1 : (i 1).val < 20 := (i 1).isLt
  have hN : cfg0.N = 25 := N_0
  have ht : (i 0).val / 4000 < cfg0.N := by rw [hN]; omega
  obtain ⟨-, -, -, -, -, -, -, -, -, -, -, -, -, -, -, -, -, -, e0, e1⟩ := idx_facts ⟨(i 0).val / 4000, ht⟩
  refine ⟨⟨(i 0).val / 4000, ht⟩, flush0_9 _, ?_⟩
  rw [mem_blk9]
  intro a
  match a with
  | ⟨0, _⟩ =>
    show win0_9.index ⟨(i 0).val / 4000, ht⟩ (0 : Fin 2) * 4000 ≤ (i 0).val ∧ (i 0).val < win0_9.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_9.index ⟨(i 0).val / 4000, ht⟩ (1 : Fin 2) * 20 ≤ (i 1).val ∧ (i 1).val < win0_9.index ⟨(i 0).val / 4000, ht⟩ (1 : Fin 2) * 20 + 20
    rw [e1]; omega

/-- So if every tile writes back its block of `G`, the result ends holding `G`. -/
theorem final9_of (c : Dev nD) (G : S100000x20.Idx → Elt F .f32)
    (hG : ∀ t, (dats m 0 c).flushed 9 t = ((cfg0.win 9).blk t).view.read (Elt F) G) :
    (dats m 0 c).arrAt 9 cfg0.N = G :=
  (dats m 0 c).arrAt_eq_of_cover 9 G (fun t _ => hG t) cover9

end Cert.KernelIdeal.Rows

end
-- ==== Proof.KerBlocks.lean ====
/-
  From tiles to the whole arrays.

  The region walks the 25 tiles of 4000 rows.  At tile `t` the two streamed blocks are rows 4000 t … 4000 t + 3999 of
  the aggregated-neighbour array and of the features; the four matrices and the bias row are the same at every tile.
  Each tile stores one whole block into each of the three results, and block `t` of a result is rows
  4000 t … 4000 t + 3999 of it.  Since every entry of a tile is a function of its own row only (`KerPay.lean`), what
  tile `t` writes back is block `t` of the whole-array functions `hArr` and `outArr` of `Rows.lean`; the 25 blocks
  cover the results (row r lies in tile r / 4000), so after the run the three results ARE those functions of the arrays
  the region was launched on.
-/
import proofs.«151472_j1176821039648_1_alg».proof.Proof.Gen.KernelIdeal.Value
import proofs.«151472_j1176821039648_1_alg».proof.Proof.KerPay
import proofs.«151472_j1176821039648_1_alg».proof.Proof.KerRead
import proofs.«151472_j1176821039648_1_alg».proof.Proof.Rows
import Idealize.ShloMosaic.Lib.Pipeline.Value
import Idealize.ShloMosaic.Lib.ValueIdx

set_option maxRecDepth 16384

noncomputable section

namespace Cert.KernelIdeal.Whole

open Cert.KernelIdeal Cert.KernelIdeal.Gen Cert.KernelIdeal.Tile Cert.Sage
open Idealize.ShloMosaic Idealize.ShloMosaic.TcCoe Idealize.SL.Sem Idealize.ShloMosaic.ValueIdx
open Idealize.ShloMosaic.Pipeline (Dat)
open scoped BigOperators

/-! ## A tile of each result is a block of rows of the whole-array function -/

section Tiles

variable (A X : FVec Ideal S100000x128 .f32) (a x : Vec Ideal S4000x128 .f32)
  (Wl Wr : Vec Ideal S128x128 .f32) (B : Vec Ideal S1x128 .f32) (r : Nat)
  (ha : ∀ (y : S4000x128.Idx) (i : S100000x128.Idx), (i 0).val = r + (y 0).val → (i 1).val = (y 1).val → a y = A i)
  (hx : ∀ (y : S4000x128.Idx) (i : S100000x128.Idx), (i 0).val = r + (y 0).val → (i 1).val = (y 1).val → x y = X i)

include ha hx in
/-- If the two blocks are rows r … r + 3999 of `A` and `X`, the tile of `h` is those rows of `hArr A X`. -/
theorem tile_h (y : S4000x128.Idx) (i : S100000x128.Idx) (h0 : (i 0).val = r + (y 0).val) (h1 : (i 1).val = (y 1).val) :
    k0_pay2 a x Wl B Wr y = hArr A X Wl Wr (fun j => B (ix2 (0 : Fin 1) j)) i := by
  obtain ⟨p, q, rfl⟩ : ∃ (p : Fin 4000) (q : Fin 128), y = ix2 p q := ⟨y 0, y 1, eq_ix2 y⟩
  obtain ⟨p', q', rfl⟩ : ∃ (p' : Fin 100000) (q' : Fin 128), i = ix2 p' q' := ⟨i 0, i 1, eq_ix2 i⟩
  have h0' : p'.val = r + p.val := h0
  obtain rfl : q' = q := Fin.ext h1
  rw [pay2_apply, hArr_apply]
  have ea : (fun k => a (ix2 p k)) = fun k => A (ix2 p' k) := funext fun k => ha (ix2 p k) (ix2 p' k) h0' rfl
  have ex : (fun k => x (ix2 p k)) = fun k => X (ix2 p' k) := funext fun k => hx (ix2 p k) (ix2 p' k) h0' rfl
  rw [ea, ex]

end Tiles

section Heads

variable {C : Nat} (H : FVec Ideal S100000x128 .f32) (a x : Vec Ideal S4000x128 .f32)
  (Wl Wr : Vec Ideal S128x128 .f32) (B : Vec Ideal S1x128 .f32) (r : Nat)
  (hh : ∀ (y : S4000x128.Idx) (i : S100000x128.Idx), (i 0).val = r + (y 0).val → (i 1).val = (y 1).val → k0_pay2 a x Wl B Wr y = H i)

include hh in
/-- The normalised rows of a tile are the normalised rows r … of the whole `h`. -/
theorem tile_hn (p : Fin 4000) (p' : Fin 100000) (h0 : p'.val = r + p.val) :
    (fun k => k0_pay3 a x Wl B Wr (ix2 p k)) = rowHN (fun k => H (ix2 p' k)) := by
  funext k
  rw [pay3_apply]
  have e : (fun k => k0_pay2 a x Wl B Wr (ix2 p k)) = fun k => H (ix2 p' k) := funext fun k => hh (ix2 p k) (ix2 p' k) h0 rfl
  rw [e]

include hh in
/-- So the first head's tile is rows r … of `outArr H W`, -/
theorem tile_o1 (W : Vec Ideal S128x10 .f32) (y : S4000x10.Idx) (i : S100000x10.Idx)
    (h0 : (i 0).val = r + (y 0).val) (h1 : (i 1).val = (y 1).val) :
    k0_pay4 a x Wl B Wr W y = outArr H W i := by
  obtain ⟨p, q, rfl⟩ : ∃ (p : Fin 4000) (q : Fin 10), y = ix2 p q := ⟨y 0, y 1, eq_ix2 y⟩
  obtain ⟨p', q', rfl⟩ : ∃ (p' : Fin 100000) (q' : Fin 10), i = ix2 p' q' := ⟨i 0, i 1, eq_ix2 i⟩
  have h0' : p'.val = r + p.val := h0
  obtain rfl : q' = q := Fin.ext h1
  rw [pay4_apply, outArr_apply, tile_hn H a x Wl Wr B r hh p p' h0']

include hh in
/-- and the second head's likewise. -/
theorem tile_o2 (W : Vec Ideal S128x20 .f32) (y : S4000x20.Idx) (i : S100000x20.Idx)
    (h0 : (i 0).val = r + (y 0).val) (h1 : (i 1).val = (y 1).val) :
    k0_pay1 (k0_pay5 a x Wl B Wr W) (k0_pay6 (F := Ideal)) y = outArr H W i := by
  obtain ⟨p, q, rfl⟩ : ∃ (p : Fin 4000) (q : Fin 20), y = ix2 p q := ⟨y 0, y 1, eq_ix2 y⟩
  obtain ⟨p', q', rfl⟩ : ∃ (p' : Fin 100000) (q' : Fin 20), i = ix2 p' q' := ⟨i 0, i 1, eq_ix2 i⟩
  have h0' : p'.val = r + p.val := h0
  obtain rfl : q' = q := Fin.ext h1
  rw [pay15_apply, outArr_apply, tile_hn H a x Wl Wr B r hh p p' h0']

end Heads

/-! ## The run -/

section Run

open Cert.KernelIdeal.Rows

variable (m : (ℓ : Loc nD τ sig) → Buf (Elt Ideal) ℓ) (ρ : Dev nD → PrngReg)

/-- The whole `h` of the arrays the region is launched on (the bias is held as one row). -/
def hK (c : Dev nD) : FVec Ideal S100000x128 .f32 :=
  hArr (V m c main_v22) (V m c main_arg0) (V m c main_arg2) (V m c main_arg4) (fun j => V m c main_v39 (ix2 (0 : Fin 1) j))

/-- Tile `t`'s `h` is rows 4000 t … of `hK`. -/
theorem tile_hK (c : Dev nD) (t : Fin cfg0.N) (y : S4000x128.Idx) (i : S100000x128.Idx)
    (h0 : (i 0).val = 4000 * t.val + (y 0).val) (h1 : (i 1).val = (y 1).val) :
    k0_pay2 (iblk m c 0 t) (iblk m c 1 t) (iblk m c 2 t) (iblk m c 3 t) (iblk m c 4 t) y = hK m c i := by
  rw [blk2_whole m c t, blk3_whole m c t, blk4_whole m c t]
  exact tile_h (V m c main_v22) (V m c main_arg0) (iblk m c 0 t) (iblk m c 1 t) (V m c main_arg2) (V m c main_arg4) (V m c main_v39)
    (4000 * t.val) (blk0_read m c t) (blk1_read m c t) y i h0 h1

theorem final_h (c : Dev nD) : (dats m 0 c).arrAt 7 cfg0.N = hK m c :=
  final7_of m c (hK m c) fun t => flushed7_read m c t (hK m c) (tile_hK m c t)

theorem final_o1 (c : Dev nD) : (dats m 0 c).arrAt 8 cfg0.N = outArr (hK m c) (V m c main_v30) :=
  final8_of m c (outArr (hK m c) (V m c main_v30)) fun t => flushed8_read m c t (outArr (hK m c) (V m c main_v30)) fun y i h0 h1 => by
    rw [blk5_whole m c t]
    exact tile_o1 (hK m c) (iblk m c 0 t) (iblk m c 1 t) (iblk m c 2 t) (iblk m c 4 t) (iblk m c 3 t) (4000 * t.val) (tile_hK m c t)
      (V m c main_v30) y i h0 h1

theorem final_o2 (c : Dev nD) : (dats m 0 c).arrAt 9 cfg0.N = outArr (hK m c) (V m c main_v38) :=
  final9_of m c (outArr (hK m c) (V m c main_v38)) fun t => flushed9_read m c t (outArr (hK m c) (V m c main_v38)) fun y i h0 h1 => by
    rw [blk6_whole m c t]
    exact tile_o2 (hK m c) (iblk m c 0 t) (iblk m c 1 t) (iblk m c 2 t) (iblk m c 4 t) (iblk m c 3 t) (4000 * t.val) (tile_hK m c t)
      (V m c main_v38) y i h0 h1

/-- The kernel's run: the three results at the whole-array functions of the arrays the region was launched on, the
    seven arguments unchanged. -/
theorem run : θ_run defs (onTc (τ := τ) (main (F := Ideal))) ⟨m, fun _ => 0, ρ⟩ fun r => ∀ c : Dev nD,
      r.2.mem ((c : Thread nD τ).loc main_v40_1) = outArr (hK m c) (V m c main_v30)
      ∧ r.2.mem ((c : Thread nD τ).loc main_v40_2) = outArr (hK m c) (V m c main_v38)
      ∧ r.2.mem ((c : Thread nD τ).loc main_v40_0) = hK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).2.1.trans (final_o1 m c), (h c).2.2.1.trans (final_o2 m c),
      (h c).1.trans (final_h m c), (h c).2.2.2⟩)
    (Cert.KernelIdeal.Value.run_blocks m ρ)

end Run

end Cert.KernelIdeal.Whole

end
-- ==== Proof.KerHost.lean ====
/-
  What the tiled region finds in its input arrays.

  Before the region runs, the program has already computed, with ordinary array operations, the mean of each node's
  neighbours (a gather of source rows, two scatter-adds over the destinations, a division by the floored degree) and
  the two column-normalised classifier matrices, and has reshaped the bias to one row.  These are the SAME operations,
  in the same order and with the same constants, as the first stages of the reference program; so the arrays the
  region is launched on are those stages of the reference, applied to the same inputs.  The stages are compared as
  whole expressions and never opened.
-/
import proofs.«151472_j1176821039648_1_alg».proof.Proof.Gen.KernelIdeal.Frame
import proofs.«151472_j1176821039648_1_alg».proof.Proof.Gen.ReferenceIdeal.Read
import Idealize.ShloMosaic.Lib.StableHlo.Run

noncomputable section

namespace Cert.KernelIdeal.Entry

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The aggregated-neighbour array at region entry is the reference's stage of the same name. -/
theorem V_agg (c : Dev nD) :
    V m c main_v22 = Cert.ReferenceIdeal.Read.val_main_v22 (F := F) (m ((c : Thread nD τ).loc main_arg0)) (m ((c : Thread nD τ).loc main_arg1)) := by
  dsimp only [V, hostOps0]
  after_results_simp
  rfl

/-- The first column-normalised classifier matrix at region entry is the reference's stage. -/
theorem V_nW1 (c : Dev nD) :
    V m c main_v30 = Cert.ReferenceIdeal.Read.val_main_v44 (F := F) (m ((c : Thread nD τ).loc main_arg5)) := by
  dsimp only [V, hostOps0]
  after_results_simp
  rfl

/-- The second, likewise. -/
theorem V_nW2 (c : Dev nD) :
    V m c main_v38 = Cert.ReferenceIdeal.Read.val_main_v55 (F := F) (m ((c : Thread nD τ).loc main_arg6)) := by
  dsimp only [V, hostOps0]
  after_results_simp
  rfl

/-- The bias at region entry: the 128 numbers as one row. -/
theorem V_bias (c : Dev nD) :
    V m c main_v39 = shapeCast S1x128 (m ((c : Thread nD τ).loc main_arg3)) shapeCasts_S128_S1x128 := by
  dsimp only [V, hostOps0]
  after_results_simp
  rfl

end Cert.KernelIdeal.Entry

end
-- ==== Proof.RefRows.lean ====
/-
  The reference program, row by row.

  The reference computes on whole arrays.  Read at entry (p, q), each of its stages depends on row p only: the two
  matrix products are sums over the contracted axis, the bias is laid along the rows, the sum of squares runs along
  row p (its initial value is zero, and `0 + s = s`), and the floored norm is laid along the columns.  So the three
  results are the whole-array functions of `Rows.lean`, applied to the aggregated-neighbour array (kept as the
  opaque stage it is: the gather, the two scatter-adds and the division are never opened) and to the two normalised
  classifier matrices (likewise kept as stages).
-/
import proofs.«151472_j1176821039648_1_alg».proof.Proof.Gen.ReferenceIdeal.Read
import proofs.«151472_j1176821039648_1_alg».proof.Proof.Rows
import Idealize.ShloMosaic.Lib.ValueIdx
import Idealize.ShloMosaic.PureOps.Ideal.Laws

noncomputable section

namespace Cert.ReferenceIdeal.Rowwise

open Cert.ReferenceIdeal Cert.ReferenceIdeal.Read Cert.Sage
open Idealize.ShloMosaic Idealize.ShloMosaic.ValueIdx
open scoped BigOperators

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128x10, .f32⟩ : BufTy).Contents (Elt Ideal))
  (x6 : (⟨S128x20, .f32⟩ : BufTy).Contents (Elt Ideal))

/-! ## Which entries each stage reads, at an entry given by its coordinates -/

theorem lidx23 (p : Fin 100000) (q k : Fin 128) : lidx_main_v23 (ix2 p q) k = ix2 p k :=
  funext fun a => by match a with | ⟨0, _⟩ => rfl | ⟨1, _⟩ => rfl
theorem ridx23 (p : Fin 100000) (q k : Fin 128) : ridx_main_v23 (ix2 p q) k = ix2 k q :=
  funext fun a => by match a with | ⟨0, _⟩ => rfl | ⟨1, _⟩ => rfl
theorem lidx27 (p : Fin 100000) (q k : Fin 128) : lidx_main_v27 (ix2 p q) k = ix2 p k :=
  funext fun a => by match a with | ⟨0, _⟩ => rfl | ⟨1, _⟩ => rfl
theorem ridx27 (p : Fin 100000) (q k : Fin 128) : ridx_main_v27 (ix2 p q) k = ix2 k q :=
  funext fun a => by match a with | ⟨0, _⟩ => rfl | ⟨1, _⟩ => rfl
theorem idx2425 (p : Fin 100000) (q : Fin 128) : idx_main_v24 (idx_main_v25 (ix2 p q)) = ix1 q :=
  funext fun a => by match a with | ⟨0, _⟩ => rfl

/-- `h` at (p, q): row p of the aggregated array and of the features through `rowH`. -/
theorem h_apply (p : Fin 100000) (q : Fin 128) :
    val_main_v28 (F := Ideal) x0 x1 x2 x3 x4 (ix2 p q)
      = rowH (fun k => val_main_v22 (F := Ideal) x0 x1 (ix2 p k)) (fun k => x0 (ix2 p k)) x2 x4 (fun j => x3 (ix1 j)) q := by
  rw [val_main_v28_apply, val_main_v26_apply, val_main_v23_apply, val_main_v25_apply, val_main_v24_apply, val_main_v27_apply,
    idx2425]
  simp only [lidx23, ridx23, lidx27, ridx27]
  rfl

/-- The whole array `h`. -/
theorem h_eq : val_main_v28 (F := Ideal) x0 x1 x2 x3 x4 = hArr (val_main_v22 (F := Ideal) x0 x1) x0 x2 x4 (fun j => x3 (ix1 j)) := by
  funext i
  obtain ⟨p, q, rfl⟩ : ∃ (p : Fin 100000) (q : Fin 128), i = ix2 p q := ⟨i 0, i 1, eq_ix2 i⟩
  rw [hArr_apply, h_apply]

/-! ## The normalised rows and the two heads -/

theorem idx30 (p : Fin 100000) (q k : Fin 128) : idx_main_v30 (idx_main_v31 (idx_main_v35 (ix2 p q))) k = ix2 p k :=
  funext fun a => by match a with | ⟨0, _⟩ => rfl | ⟨1, _⟩ => rfl
theorem lidx45 (p : Fin 100000) (j : Fin 10) (k : Fin 128) : lidx_main_v45 (ix2 p j) k = ix2 p k :=
  funext fun a => by match a with | ⟨0, _⟩ => rfl | ⟨1, _⟩ => rfl
theorem ridx45 (p : Fin 100000) (j : Fin 10) (k : Fin 128) : ridx_main_v45 (ix2 p j) k = ix2 k j :=
  funext fun a => by match a with | ⟨0, _⟩ => rfl | ⟨1, _⟩ => rfl
theorem lidx56 (p : Fin 100000) (j : Fin 20) (k : Fin 128) : lidx_main_v56 (ix2 p j) k = ix2 p k :=
  funext fun a => by match a with | ⟨0, _⟩ => rfl | ⟨1, _⟩ => rfl
theorem ridx56 (p : Fin 100000) (j : Fin 20) (k : Fin 128) : ridx_main_v56 (ix2 p j) k = ix2 k j :=
  funext fun a => by match a with | ⟨0, _⟩ => rfl | ⟨1, _⟩ => rfl

/-- The normalised `h` at (p, q): the entry over the floored norm of row p (the sum of squares starts from zero). -/
theorem hn_apply (p : Fin 100000) (q : Fin 128) :
    val_main_v36 (F := Ideal) x0 x1 x2 x3 x4 (ix2 p q)
      = rowHN (fun k => val_main_v28 (F := Ideal) x0 x1 x2 x3 x4 (ix2 p k)) q := by
  rw [val_main_v36_apply, val_main_v35_apply, val_main_v34_apply, val_main_v32_apply, val_main_v31_apply, val_main_v30_apply,
    val_main_v33_apply, val_main_cst_5_apply, val_main_cst_4_apply]
  have hs : (∑ k : Fin 128, val_main_v29 (F := Ideal) x0 x1 x2 x3 x4 (idx_main_v30 (idx_main_v31 (idx_main_v35 (ix2 p q))) k))
      = ∑ k : Fin 128, val_main_v28 (F := Ideal) x0 x1 x2 x3 x4 (ix2 p k) * val_main_v28 (F := Ideal) x0 x1 x2 x3 x4 (ix2 p k) :=
    Finset.sum_congr rfl fun k _ => by rw [idx30, val_main_v29_apply, Ideal.mulf_def]
  rw [hs]
  generalize val_main_v28 (F := Ideal) x0 x1 x2 x3 x4 = H
  unfold rowHN rowNrm
  rw [Ideal.hostDivf_def, Ideal.maximumf_def, Ideal.hostUnary_sqrt_def, Ideal.ofBits_def, Ideal.ofBits_def, Ideal.ofBits_zero_f32,
    zero_add]

/-- The first head, whole. -/
theorem o1_eq : val_main_v47 (F := Ideal) x0 x1 x2 x3 x4 x5
    = outArr (val_main_v28 (F := Ideal) x0 x1 x2 x3 x4) (val_main_v44 (F := Ideal) x5) := by
  funext i
  obtain ⟨p, j, rfl⟩ : ∃ (p : Fin 100000) (j : Fin 10), i = ix2 p j := ⟨i 0, i 1, eq_ix2 i⟩
  rw [outArr_apply, val_main_v47_apply, val_main_v46_apply, val_main_cst_8_apply, val_main_v45_apply]
  have hs : (∑ k : Fin 128, val_main_v36 (F := Ideal) x0 x1 x2 x3 x4 (lidx_main_v45 (ix2 p j) k) * val_main_v44 (F := Ideal) x5 (ridx_main_v45 (ix2 p j) k))
      = ∑ k : Fin 128, rowHN (fun k => val_main_v28 (F := Ideal) x0 x1 x2 x3 x4 (ix2 p k)) k * val_main_v44 (F := Ideal) x5 (ix2 k j) :=
    Finset.sum_congr rfl fun k _ => by rw [lidx45, ridx45, hn_apply]
  rw [hs]
  generalize val_main_v28 (F := Ideal) x0 x1 x2 x3 x4 = H
  generalize val_main_v44 (F := Ideal) x5 = W
  unfold rowOut
  rw [Ideal.mulf_def, Ideal.ofBits_def]

/-- The second head, whole. -/
theorem o2_eq : val_main_v58 (F := Ideal) x0 x1 x2 x3 x4 x6
    = outArr (val_main_v28 (F := Ideal) x0 x1 x2 x3 x4) (val_main_v55 (F := Ideal) x6) := by
  funext i
  obtain ⟨p, j, rfl⟩ : ∃ (p : Fin 100000) (j : Fin 20), i = ix2 p j := ⟨i 0, i 1, eq_ix2 i⟩
  rw [outArr_apply, val_main_v58_apply, val_main_v57_apply, val_main_cst_11_apply, val_main_v56_apply]
  have hs : (∑ k : Fin 128, val_main_v36 (F := Ideal) x0 x1 x2 x3 x4 (lidx_main_v56 (ix2 p j) k) * val_main_v55 (F := Ideal) x6 (ridx_main_v56 (ix2 p j) k))
      = ∑ k : Fin 128, rowHN (fun k => val_main_v28 (F := Ideal) x0 x1 x2 x3 x4 (ix2 p k)) k * val_main_v55 (F := Ideal) x6 (ix2 k j) :=
    Finset.sum_congr rfl fun k _ => by rw [lidx56, ridx56, hn_apply]
  rw [hs]
  generalize val_main_v28 (F := Ideal) x0 x1 x2 x3 x4 = H
  generalize val_main_v55 (F := Ideal) x6 = W
  unfold rowOut
  rw [Ideal.mulf_def, Ideal.ofBits_def]

end Cert.ReferenceIdeal.Rowwise

end
-- ==== Proof.Same.lean ====
/-
  The kernel's results are the reference's stages.

  After its run the kernel holds `hArr` and `outArr` of the arrays its region was launched on (`KerBlocks.lean`); those
  arrays are the reference's aggregation stage and its two normalised classifier matrices, and the arguments themselves
  (`KerHost.lean`); and the reference's three results are `hArr` and `outArr` of exactly those (`RefRows.lean`).  The only
  thing left to say is that the bias, which the kernel holds as the one row of a 1 x 128 array, reads there what the
  128 numbers read.
-/
import proofs.«151472_j1176821039648_1_alg».proof.Proof.KerBlocks
import proofs.«151472_j1176821039648_1_alg».proof.Proof.KerHost
import proofs.«151472_j1176821039648_1_alg».proof.Proof.RefRows
import Idealize.ShloMosaic.Lib.ValueLayout

noncomputable section

namespace Cert.KernelIdeal.Same

open Cert.KernelIdeal Cert.KernelIdeal.Gen Cert.KernelIdeal.Whole Cert.KernelIdeal.Entry Cert.Sage
open Idealize.ShloMosaic Idealize.ShloMosaic.TcCoe Idealize.SL.Sem Idealize.ShloMosaic.ValueIdx

variable (m : (ℓ : Loc nD τ sig) → Buf (Elt Ideal) ℓ)

/-- The bias row read along its one row is the bias. -/
theorem bias_row (b : Vec Ideal S128 .f32) :
    (fun j : Fin 128 => shapeCast S1x128 b shapeCasts_S128_S1x128 (ix2 (0 : Fin 1) j)) = fun j => b (ix1 j) :=
  funext fun j => shapeCast_a_1a_apply b shapeCasts_S128_S1x128 (0 : Fin 1) j

/-- The kernel's `h` is the reference's. -/
theorem h_same (c : Dev nD) :
    hK m c = Cert.ReferenceIdeal.Read.val_main_v28 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  rw [Cert.ReferenceIdeal.Rowwise.h_eq]
  unfold hK
  rw [V_agg, V_main_arg0, V_main_arg2, V_main_arg4, V_bias, bias_row]

/-- The kernel's first head is the reference's. -/
theorem o1_same (c : Dev nD) :
    outArr (hK m c) (V m c main_v30) = Cert.ReferenceIdeal.Read.val_main_v47 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) := by
  rw [Cert.ReferenceIdeal.Rowwise.o1_eq, h_same, V_nW1]

/-- The kernel's second head is the reference's. -/
theorem o2_same (c : Dev nD) :
    outArr (hK m c) (V m c main_v38) = Cert.ReferenceIdeal.Read.val_main_v58 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg6)) := by
  rw [Cert.ReferenceIdeal.Rowwise.o2_eq, h_same, V_nW2]

end Cert.KernelIdeal.Same

end
-- ==== Proof.lean ====
/-
  A graph-convolution head: mean aggregation of neighbours, two 128 x 128 projections with a bias, row normalisation,
  and two classifier heads against column-normalised matrices, over 100000 nodes with 128 features.

  The tiled kernel and the whole-array reference compute the same thing.  Both first form, with the same array
  operations, the mean of each node's neighbours (a gather, two scatter-adds, a division by the floored degree) and the
  two normalised classifier matrices.  The kernel then works through the nodes 4000 rows at a time, the reference on all
  rows at once; since every entry of

      h   = agg · Wl + b + x · Wr,      hn = h / max (‖h‖, eps)  (row by row),      out = 10 · (hn · nW)

  depends on its own row only, tiling the rows changes nothing.  At the ideal reading a matrix product into a zero
  accumulator is the plain sum over the contracted axis, and a sum of squares that starts from zero is the plain sum;
  the additions and products come in the same order on both sides, so the two results agree on all extended reals and
  the finiteness of the inputs is never used.

  The three frames: the kernel's two (at the word level and at the ideal reading) are the generated frame runs; the
  reference's is its generated run with the results dropped.  No operation of the kernel was rewritten for the ideal
  reading, so there is nothing to preserve.
-/
import proofs.«151472_j1176821039648_1_alg».proof.Defs
import proofs.«151472_j1176821039648_1_alg».proof.Proof.Gen.Kernel
import proofs.«151472_j1176821039648_1_alg».proof.Proof.Gen.Kernel.Skeleton
import proofs.«151472_j1176821039648_1_alg».proof.Proof.Gen.Kernel.Launch
import proofs.«151472_j1176821039648_1_alg».proof.Proof.Gen.Kernel.Points
import proofs.«151472_j1176821039648_1_alg».proof.Proof.Gen.Kernel.Frame
import proofs.«151472_j1176821039648_1_alg».proof.Proof.Gen.KernelIdeal
import proofs.«151472_j1176821039648_1_alg».proof.Proof.Gen.KernelIdeal.Skeleton
import proofs.«151472_j1176821039648_1_alg».proof.Proof.Gen.KernelIdeal.Launch
import proofs.«151472_j1176821039648_1_alg».proof.Proof.Gen.KernelIdeal.Points
import proofs.«151472_j1176821039648_1_alg».proof.Proof.Gen.KernelIdeal.Frame
import proofs.«151472_j1176821039648_1_alg».proof.Proof.Gen.ReferenceIdeal
import proofs.«151472_j1176821039648_1_alg».proof.Proof.Gen.Pre_finite_inputs
import proofs.«151472_j1176821039648_1_alg».proof.Proof.Gen.KernelIdeal.Value
import proofs.«151472_j1176821039648_1_alg».proof.Proof.Gen.ReferenceIdeal.Run
import proofs.«151472_j1176821039648_1_alg».proof.Proof.Gen.ReferenceIdeal.Read
import proofs.«151472_j1176821039648_1_alg».proof.Proof.Same
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both programs end with the same three arrays: the kernel's are the whole-array functions of the arrays its region
    was launched on, which are the reference's stages of arguments that agree. -/
theorem algebraic : Cert.algebraic_KernelIdeal_ReferenceIdeal := by
  intro m ρ m' ρ' _ hagree
  refine ⟨fun c => Cert.Sage.outArr (Cert.KernelIdeal.Whole.hK m c) (Cert.KernelIdeal.Gen.V m c Cert.KernelIdeal.main_v30),
    fun c => Cert.Sage.outArr (Cert.KernelIdeal.Whole.hK m c) (Cert.KernelIdeal.Gen.V m c Cert.KernelIdeal.main_v38),
    fun c => Cert.KernelIdeal.Whole.hK m c, Cert.KernelIdeal.Whole.run m ρ, ?_⟩
  refine (θ_run Cert.ReferenceIdeal.defs _ _).mono (fun _ h c => ⟨(h c).1.trans ?_, (h c).2.1.trans ?_,
    (h c).2.2.1.trans ((Cert.ReferenceIdeal.Read.val_main_v28_eq _ _ _ _ _).trans ?_), (h c).2.2.2⟩)
    (Cert.ReferenceIdeal.Value.run (F := Ideal) m' ρ')
  · rw [Cert.ReferenceIdeal.Read.val_main_v47_eq, (hagree c).1, (hagree c).2.1, (hagree c).2.2.1, (hagree c).2.2.2.1,
      (hagree c).2.2.2.2.1, (hagree c).2.2.2.2.2.1]
    exact (Cert.KernelIdeal.Same.o1_same m c).symm
  · rw [Cert.ReferenceIdeal.Read.val_main_v58_eq, (hagree c).1, (hagree c).2.1, (hagree c).2.2.1, (hagree c).2.2.2.1,
      (hagree c).2.2.2.2.1, (hagree c).2.2.2.2.2.2]
    exact (Cert.KernelIdeal.Same.o2_same m c).symm
  · rw [(hagree c).1, (hagree c).2.1, (hagree c).2.2.1, (hagree c).2.2.2.1, (hagree c).2.2.2.2.1]
    exact (Cert.KernelIdeal.Same.h_same m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
